-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S600x10000 : Shape := ⟨2, ![600, 10000]⟩
abbrev S600x128 : Shape := ⟨2, ![600, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S600x10000, .f32⟩
  | .local _ .vmem, ⟨3, _⟩ => ⟨S600x10000, .f32⟩
  | .local _ .vmem, ⟨4, _⟩ => ⟨S600x128, .f32⟩
  | .local _ .vmem, ⟨5, _⟩ => ⟨S600x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S600x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S600x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S600x10000_S600x10000_0_0 : ∀ a, (![0, 0] : Fin 2 → Nat) a + S600x10000.size a ≤ S600x10000.size a
  h_S600x10000 : 0 < S600x10000.numel
  inb_S600x128_S600x128_0_0 : ∀ a, (![0, 0] : Fin 2 → Nat) a + S600x128.size a ≤ S600x128.size a
  h_S600x128 : 0 < S600x128.numel
  dot_S10000x128_S128x128_S10000x128_1_0_0_1_n_n_wf : DotDims.WF S10000x128 S128x128 S10000x128 [1] [0] [0] [1] [] []
  dot_S600x10000_S10000x128_S600x128_1_0_0_1_n_n_wf : DotDims.WF S600x10000 S10000x128 S600x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S600x10000.size a < S10000x10000.size a
  hwx0_2 : ∀ i : grid0.Coords, EltTy.bits .f32 = 32 ∨ (Rect.unit (s := S10000x10000) (fun a => cc0_transform_2 i a * S600x10000.size a) (fun a => (Pipeline.Clip.of (cc0_transform_2 i a) (S600x10000.size a) (S10000x10000.size a)).extent (S600x10000.size a)) fun a => Pipeline.Clip.inb (Pipeline.Clip.ok_of (hstart0_2 i a))).WholeWords (EltTy.packing .f32)
  hwxs0_2 : ∀ i : grid0.Coords, EltTy.bits .f32 = 32 ∨ (Rect.unit (s := S600x10000) (fun _ => 0) (fun a => (Pipeline.Clip.of (cc0_transform_2 i a) (S600x10000.size a) (S10000x10000.size a)).extent (S600x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S600x128.size a < S10000x128.size a
  hwx0_3 : ∀ i : grid0.Coords, EltTy.bits .f32 = 32 ∨ (Rect.unit (s := S10000x128) (fun a => cc0_transform_3 i a * S600x128.size a) (fun a => (Pipeline.Clip.of (cc0_transform_3 i a) (S600x128.size a) (S10000x128.size a)).extent (S600x128.size a)) fun a => Pipeline.Clip.inb (Pipeline.Clip.ok_of (hstart0_3 i a))).WholeWords (EltTy.packing .f32)
  hwxs0_3 : ∀ i : grid0.Coords, EltTy.bits .f32 = 32 ∨ (Rect.unit (s := S600x128) (fun _ => 0) (fun a => (Pipeline.Clip.of (cc0_transform_3 i a) (S600x128.size a) (S10000x128.size a)).extent (S600x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S600x10000_S10000x128_S600x128_1_0_0_1_n_n : DotDims S600x10000 S10000x128 S600x128 where
  lhsContracting := [1]
  rhsContracting := [0]
  lhsNonContracting := [0]
  rhsNonContracting := [1]
  lhsBatch := []
  rhsBatch := []
  wf := dot_S600x10000_S10000x128_S600x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S600x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S600x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelFrame.lean ====
/- The frame of the word-level program: every weakly fair execution of @main terminates without a fault and
   leaves the three argument arrays as they were.

   The kernel is one pipelined region on a grid of 17 points. Windows 0 and 1 (the feature matrix and the weight
   matrix) are whole arrays fetched once; window 2 (a block of 600 rows of the adjacency matrix) and window 3 (a block
   of 600 rows of the result) are cut at the arrays' end at the last point (17 * 600 = 10200 > 10000). At the first
   point the body also fills a scratch buffer it keeps for every later point. A frame says nothing of what the
   result holds, so the proof data are RELATIONAL: the body leaves the two whole inputs' buffers as it found them,
   and of the two cut windows' buffers nothing is said. -/
import proofs.«179994_g53772990545976_cont_sun_m_1082_14_alg».proof.Proof.Gen.Kernel.Frame
import proofs.«179994_g53772990545976_cont_sun_m_1082_14_alg».proof.Proof.Gen.Kernel.Skeleton
import proofs.«179994_g53772990545976_cont_sun_m_1082_14_alg».proof.Proof.Gen.Pre_finite_inputs
import proofs.«179994_g53772990545976_cont_sun_m_1082_14_alg».proof.Defs

set_option maxRecDepth 16384

noncomputable section

namespace Cert.Proof.KernelFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-! ## The body on any whole memrefs -/

/-- The scratch operand: a whole scoped buffer of the kernel's own, passed beside the windows. -/
abbrev scM : Memref sig .tc .vmem S10000x128 .f32 := Memref.whole cc0_scratch0

/-- The condition of the body's one branch, from the grid coordinate: "this is the first point". -/
abbrev cond0 (i : grid0.Coords) : Prop :=
  (Scalar.cmpi .ne (Scalar.extui (Scalar.cmpi .eq (BitVec.ofNat 32 (i 0).val) 0#32)) 0#32) = 1#1

/-- It holds at the first point and at no other: decided over the 17 points of the grid. -/
theorem hcond0 : ∀ t : Fin cfg0.N, cond0 (grid0.coords t) ↔ t.val = 0 :=
  (by decide +kernel : ∀ t : Fin grid0.N, cond0 (grid0.coords t) ↔ t.val = 0)

/-- THE FIRST POINT (the branch taken). The body loads the feature matrix and the weight matrix, loads the scratch
    (at whatever it holds), stores their product into the scratch, then loads the adjacency block, the scratch and
    the result's buffer and stores into the result's buffer: every load is of a buffer owned whole, every store is
    into a buffer owned at the full share, and no input's buffer is stored into. So it runs, from the four
    windows' buffers at any contents and the scratch at some contents, to the three inputs' buffers as they were,
    the result's buffer and the scratch at some contents. -/
theorem body_first (c : Dev nD) (i : grid0.Coords)
    (a1 : Memref sig .tc .vmem S10000x128 .f32) (h1 : a1.IsWhole) (a2 : Memref sig .tc .vmem S128x128 .f32) (h2 : a2.IsWhole)
    (a3 : Memref sig .tc .vmem S600x10000 .f32) (h3 : a3.IsWhole) (a4 : Memref sig .tc .vmem S600x128 .f32) (h4 : a4.IsWhole)
    (hc : cond0 i)
    (X0 : Vec F S10000x128 .f32) (X1 : Vec F S128x128 .f32) (X2 : Vec F S600x10000 .f32) (X3 : Vec F S600x128 .f32)
    (E : Set ℕ) (K : PUnit → sProp 𝕄) :
    iprop(owns (c : Thread nD τ) a1 fullShare X0 ∗ owns (c : Thread nD τ) a2 fullShare X1 ∗ owns (c : Thread nD τ) a3 fullShare X2
        ∗ owns (c : Thread nD τ) a4 fullShare X3 ∗ (∃ d, owns (c : Thread nD τ) scM fullShare d)
        ∗ (iprop(owns (c : Thread nD τ) a1 fullShare X0 ∗ owns (c : Thread nD τ) a2 fullShare X1 ∗ owns (c : Thread nD τ) a3 fullShare X2
            ∗ (∃ d, owns (c : Thread nD τ) a4 fullShare d) ∗ (∃ d, owns (c : Thread nD τ) scM fullShare d)) -∗ K ⟨⟩))
      ⊢ wp frame (wpE (defs₀ (F := F)) Variants.none c none) E
          (cc0__gcn_kernel i a1 h1 a2 h2 a3 h3 a4 h4 scM (Memref.isWhole_whole _)) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := h1.eq_unread hf0; obtain rfl := h2.eq_unread hf1; obtain rfl := h3.eq_unread hf2
  sl_exec (disch := first | sl_exact hc | exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; iexists _; isplitr
    swap; · iexact H3
    ipureintro; rfl
  iexists _; iexists _; isplitr
  swap; · iexact HS
  ipureintro; rfl

/-- EVERY OTHER POINT (the branch not taken). The body only loads the adjacency block, the scratch and the result's
    buffer and stores into the result's buffer: the same triple, the scratch untouched. -/
theorem body_rest (c : Dev nD) (i : grid0.Coords)
    (a1 : Memref sig .tc .vmem S10000x128 .f32) (h1 : a1.IsWhole) (a2 : Memref sig .tc .vmem S128x128 .f32) (h2 : a2.IsWhole)
    (a3 : Memref sig .tc .vmem S600x10000 .f32) (h3 : a3.IsWhole) (a4 : Memref sig .tc .vmem S600x128 .f32) (h4 : a4.IsWhole)
    (hc : ¬cond0 i)
    (X0 : Vec F S10000x128 .f32) (X1 : Vec F S128x128 .f32) (X2 : Vec F S600x10000 .f32) (X3 : Vec F S600x128 .f32)
    (E : Set ℕ) (K : PUnit → sProp 𝕄) :
    iprop(owns (c : Thread nD τ) a1 fullShare X0 ∗ owns (c : Thread nD τ) a2 fullShare X1 ∗ owns (c : Thread nD τ) a3 fullShare X2
        ∗ owns (c : Thread nD τ) a4 fullShare X3 ∗ (∃ d, owns (c : Thread nD τ) scM fullShare d)
        ∗ (iprop(owns (c : Thread nD τ) a1 fullShare X0 ∗ owns (c : Thread nD τ) a2 fullShare X1 ∗ owns (c : Thread nD τ) a3 fullShare X2
            ∗ (∃ d, owns (c : Thread nD τ) a4 fullShare d) ∗ (∃ d, owns (c : Thread nD τ) scM fullShare d)) -∗ K ⟨⟩))
      ⊢ wp frame (wpE (defs₀ (F := F)) Variants.none c none) E
          (cc0__gcn_kernel i a1 h1 a2 h2 a3 h3 a4 h4 scM (Memref.isWhole_whole _)) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := h1.eq_unread hf0; obtain rfl := h2.eq_unread hf1; obtain rfl := h3.eq_unread hf2
  sl_exec (disch := first | sl_exact hc | exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; iexists _; isplitr
    swap; · iexact H3
    ipureintro; rfl
  iexists _; iexists _; isplitr
  swap; · iexact HS
  ipureintro; rfl

/-! ## The proof data -/

section Data

variable (m : (ℓ : Loc nD τ sig) → Buf (Elt F) ℓ) (ρ : Dev nD → PrngReg)

/-- The relational proof data of core `c`. The arrays at entry are as launched (@main is the region alone). What the
    body leaves in a window's current buffer, given what it found there: the two whole inputs (windows 0 and 1) as
    found — they are fetched at the first point only, and every later point must find them still there —; of the
    adjacency block (window 2, fetched anew at every point) and of the result's block (window 3, written back at
    every point) nothing is said. The invariant is the scratch at some contents and the generator register; the core
    holds every array whole and owes no one anything. -/
def rdats (c : Dev nD) : RDat τ (Elt F) Unit ℕ (UR sig nD τ) ℕ cfg0 c where
  A w := Gen.V m c (Pipeline.arrRef spec0 w)
  after := fun (w : Fin 4) _ => match w with
    | 0 => fun Y X => X = Y
    | 1 => fun Y X => X = Y
    | 2 => fun _ _ => True
    | 3 => fun _ _ => True
    | ⟨_ + 4, h⟩ => absurd h (Nat.not_lt.2 (Nat.le_add_left _ _))
  Φ _ := Pipeline.ΦA spec0 c
  q _ := fullShare
  owed _ := 0

theorem after_0 (c : Dev nD) (t : Fin cfg0.N) (Y : Vec F S10000x128 .f32) : (rdats m c).after 0 t Y Y := rfl
theorem after_1 (c : Dev nD) (t : Fin cfg0.N) (Y : Vec F S128x128 .f32) : (rdats m c).after 1 t Y Y := rfl
theorem after_2 (c : Dev nD) (t : Fin cfg0.N) (Y X : Vec F S600x10000 .f32) : (rdats m c).after 2 t Y X := trivial
theorem after_3 (c : Dev nD) (t : Fin cfg0.N) (Y X : Vec F S600x128 .f32) : (rdats m c).after 3 t Y X := trivial

/-- The invariant with the scratch as a memref owned at some contents: the core's scoped buffers that are no staging
    buffer are the scratch alone. -/
theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## The body obligation -/

/-- Each window's current staging memref at point `t`, as the pipeline passes it to the body. -/
abbrev ms0 (t : Fin cfg0.N) : Memref sig .tc .vmem S10000x128 .f32 := win0_0.stage (cfg0.slots t 0)
abbrev ms1 (t : Fin cfg0.N) : Memref sig .tc .vmem S128x128 .f32 := win0_1.stage (cfg0.slots t 1)
abbrev ms2 (t : Fin cfg0.N) : Memref sig .tc .vmem S600x10000 .f32 := win0_2.stage (cfg0.slots t 2)
abbrev ms3 (t : Fin cfg0.N) : Memref sig .tc .vmem S600x128 .f32 := win0_3.stage (cfg0.slots t 3)

/-- The body at any point, on whatever the four current buffers hold: the closed form of the branch condition says
    which of the two triples applies; the invariant hands the body the scratch at some contents and takes it back at
    some contents; the two whole inputs come back as found (the relation of windows 0 and 1), the other two buffers
    at some contents (of which nothing is asked); the core owes nothing throughout. -/
theorem sound_body (c : Dev nD) (t : Fin cfg0.N) (Y0 : Vec F S10000x128 .f32) (Y1 : Vec F S128x128 .f32)
    (Y2 : Vec F S600x10000 .f32) (Y3 : Vec F S600x128 .f32) :
    iprop((Pipeline.ΦA spec0 c : sProp 𝕄) ∗ (rdats m c).owesAt () t.castSucc
        ∗ owns (c : Thread nD τ) (ms0 t) fullShare Y0 ∗ owns (c : Thread nD τ) (ms1 t) fullShare Y1
        ∗ owns (c : Thread nD τ) (ms2 t) fullShare Y2 ∗ owns (c : Thread nD τ) (ms3 t) fullShare Y3)
      ⊢ wp frame (wpE (defs₀ (F := F)) Variants.none c none) Set.univ (bodyAt0 t) (fun _ =>
          iprop((Pipeline.ΦA spec0 c : sProp 𝕄) ∗ (rdats m c).owesAt () t.castSucc
            ∗ (∃ X, ⌜(rdats m c).after 0 t Y0 X⌝ ∗ owns (c : Thread nD τ) (ms0 t) fullShare X)
            ∗ (∃ X, ⌜(rdats m c).after 1 t Y1 X⌝ ∗ owns (c : Thread nD τ) (ms1 t) fullShare X)
            ∗ (∃ X, ⌜(rdats m c).after 2 t Y2 X⌝ ∗ owns (c : Thread nD τ) (ms2 t) fullShare X)
            ∗ (∃ X, ⌜(rdats m c).after 3 t Y3 X⌝ ∗ owns (c : Thread nD τ) (ms3 t) fullShare X))) := by
  unfold bodyAt0
  rw [PhiA0_eq]
  by_cases hz : t.val = 0
  · iintro ⟨⟨HS, Hg⟩, Ho, H0, H1, H2, H3⟩
    iapply (body_first c (grid0.coords t) _ _ _ _ _ _ _ _ ((hcond0 t).mpr hz) Y0 Y1 Y2 Y3 Set.univ _)
    isplitl [H0]; · iexact H0
    isplitl [H1]; · iexact H1
    isplitl [H2]; · iexact H2
    isplitl [H3]; · iexact H3
    isplitl [HS]; · iexact HS
    iintro ⟨H0, H1, H2, ⟨%e3, H3⟩, HS⟩
    isplitl [HS Hg]
    · isplitl [HS]; · iexact HS
      iexact Hg
    isplitl [Ho]; · iexact Ho
    isplitl [H0]
    · iexists Y0; isplitr; · ipureintro; exact after_0 m c t Y0
      iexact H0
    isplitl [H1]
    · iexists Y1; isplitr; · ipureintro; exact after_1 m c t Y1
      iexact H1
    isplitl [H2]
    · iexists Y2; isplitr; · ipureintro; exact after_2 m c t Y2 Y2
      iexact H2
    iexists e3; isplitr; · ipureintro; exact after_3 m c t Y3 e3
    iexact H3
  · iintro ⟨⟨HS, Hg⟩, Ho, H0, H1, H2, H3⟩
    iapply (body_rest c (grid0.coords t) _ _ _ _ _ _ _ _ (fun h => hz ((hcond0 t).mp h)) Y0 Y1 Y2 Y3 Set.univ _)
    isplitl [H0]; · iexact H0
    isplitl [H1]; · iexact H1
    isplitl [H2]; · iexact H2
    isplitl [H3]; · iexact H3
    isplitl [HS]; · iexact HS
    iintro ⟨H0, H1, H2, ⟨%e3, H3⟩, HS⟩
    isplitl [HS Hg]
    · isplitl [HS]; · iexact HS
      iexact Hg
    isplitl [Ho]; · iexact Ho
    isplitl [H0]
    · iexists Y0; isplitr; · ipureintro; exact after_0 m c t Y0
      iexact H0
    isplitl [H1]
    · iexists Y1; isplitr; · ipureintro; exact after_1 m c t Y1
      iexact H1
    isplitl [H2]
    · iexists Y2; isplitr; · ipureintro; exact after_2 m c t Y2 Y2
      iexact H2
    iexists e3; isplitr; · ipureintro; exact after_3 m c t Y3 e3
    iexact H3

/-- The library's body obligation of the relational data, at every point: the windows opened one by one, it is
    `sound_body` (what the buffers may hold, `Finds`, is not needed: the body runs on any contents). -/
theorem body_obligation (c : Dev nD) : (rdats (F := F) m c).BodyObligation (defs₀ (F := F)) Variants.none () Set.univ := by
  intro t Y _
  rw [bigSep_W0, bigSep_W0]
  exact sound_body m c t (Y 0) (Y 1) (Y 2) (Y 3)

/-! ## The run and the frame -/

set_option backward.isDefEq.respectTransparency.types false in
/-- At the compiled mesh, from any memory with zero counters: every weakly fair execution of @main terminates, nothing
    faulting, and in every final state each windowed array holds some contents the relational data allow after every
    write-back — an input array its contents at entry — and every other unscoped buffer what it held at entry. -/
theorem run_main : θ_run defs (onTc (τ := τ) (main (F := F))) (s₀ m ρ) (RDat.FramePost cfg0 (rdats m) (Gen.V m)) :=
  Pipeline.RDat.θ_run_frame cfgs (0 : Fin 1) launch0 defs₀ Variants.none (rdats m) m ρ main
    (hbody := body_obligation m) (hshare := fun c => (rdats m c).share_full fun _ => rfl)
    (howed := fun _ _ => rfl) (V := Gen.V m) (hmain := Gen.hmain m Variants.none) (hA := fun _ _ => rfl) (hΦ := fun _ _ => rfl)

end Data

/-- THE FRAME of the word-level program. The three argument arrays are the arrays of the three input windows — the
    custom call's operands are (feature matrix, weight matrix, adjacency matrix), so `main_arg0` is window 0's,
    `main_arg2` window 1's and `main_arg1` window 2's —, an input window's array ends at its entry contents, and
    those are the launch memory's. The precondition is not used. -/
theorem frame : Cert.frame_Kernel := fun m ρ _ =>
  (θ_run (Cert.Kernel.defs (F := Bits)) _ _).mono (fun _ h c =>
    ⟨(h.arr_in c 0 rfl).trans (Gen.V_main_arg0 m c),
     (h.arr_in c 2 rfl).trans (Gen.V_main_arg1 m c),
     (h.arr_in c 1 rfl).trans (Gen.V_main_arg2 m c)⟩) (run_main (F := Bits) m ρ)

end Cert.Proof.KernelFrame

end
-- ==== Proof.IdealRun.lean ====
/-
  The kernel body run once, on any whole staging buffers, at any float instance: at the first grid point it fills the scratch
  with the product of the feature and weight blocks and then stores the rectified product of the adjacency block with the
  scratch; at every later point only the second, over the scratch as the first point left it.
-/
import proofs.«179994_g53772990545976_cont_sun_m_1082_14_alg».proof.Proof.Gen.KernelIdeal.Launch
import proofs.«179994_g53772990545976_cont_sun_m_1082_14_alg».proof.Proof.Gen.KernelIdeal.Skeleton
import proofs.«179994_g53772990545976_cont_sun_m_1082_14_alg».proof.Proof.Gen.KernelIdeal.Points
import proofs.«179994_g53772990545976_cont_sun_m_1082_14_alg».proof.Proof.Gen.KernelIdeal.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch is taken exactly when the grid coordinate is zero (the printed scalar chain, substituted). -/
abbrev isFirst (i : grid0.Coords) : Prop :=
  (Scalar.cmpi .ne (Scalar.extui (Scalar.cmpi .eq (BitVec.ofNat 32 (i 0).val) 0#32)) 0#32) = 1#1

/-- Over the grid: at the first point and at no other. -/
theorem isFirst_iff : ∀ t : Fin cfg0.N, isFirst (grid0.coords t) ↔ t.val = 0 :=
  (by decide +kernel : ∀ t : Fin grid0.N, isFirst (grid0.coords t) ↔ t.val = 0)

/-- The offsets of every access of the body are zero. -/
theorem off_zero : (![0, 0] : Fin 2 → Nat) = fun _ => 0 := funext fun a => by fin_cases a <;> rfl

/-- One store through a buffer's whole rectangle leaves its payload there, whatever the buffer held. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  have hcov : ∀ y : S.Idx, ∃ p ∈ [(⟨Rect.unit off S.size inb, w⟩ : View.Piece (Elt F) S e)], y ∈ p.1.set :=
    fun y => ⟨_, List.mem_singleton_self _, View.mem_set_unit_zero h inb y⟩
  rw [View.read_writes_eq_canon _ _ _ hcov, View.canon_unit_zero h]

/-- THE FIRST POINT. On whole buffers holding x0 (the features), x1 (the weights), x2 (the adjacency rows), anything in the
    result's block and in the scratch: the body stores the product of x0 and x1 in the scratch, reads it back, and stores
    the rectified product of x2 with it in the result's block; the three inputs are left as they were. -/
theorem run_first (c : Dev nD) (i : grid0.Coords) (hc : isFirst i)
    (a1 : Memref sig .tc .vmem S10000x128 .f32) (h1 : a1.IsWhole) (a2 : Memref sig .tc .vmem S128x128 .f32) (h2 : a2.IsWhole)
    (a3 : Memref sig .tc .vmem S600x10000 .f32) (h3 : a3.IsWhole) (a4 : Memref sig .tc .vmem S600x128 .f32) (h4 : a4.IsWhole)
    (a5 : Memref sig .tc .vmem S10000x128 .f32) (h5 : a5.IsWhole)
    (x0 : Vec F S10000x128 .f32) (x1 : Vec F S128x128 .f32) (x2 : Vec F S600x10000 .f32) (E : Set ℕ) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare (k0_pay2 x2 (k0_pay1 x0 x1)) ∗ owns (c : Thread nD τ) a5 fullShare (k0_pay1 x0 x1)) -∗ K ⟨⟩))
      ⊢ wp frame (wpE (defs₀ (F := F)) Variants.none c none) E (cc0__gcn_kernel i a1 h1 a2 h2 a3 h3 a4 h4 a5 h5) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, ⟨%d5, %f5, -, H5⟩, Hk⟩
  obtain rfl := h1.eq_unread hf0; obtain rfl := h2.eq_unread hf1; obtain rfl := h3.eq_unread hf2
  -- a load of a whole buffer reads its contents
  have e1 : View.readAt (Elt F) a1.view (Rect.unit ![0, 0] S10000x128.size inb_S10000x128_S10000x128_0_0).toLoadRect (h1.unread x0) = x0 := by
    rw [View.readAt_eq_ld, h1.read_unread, View.ld_unit_zero off_zero]
  have e2 : View.readAt (Elt F) a2.view (Rect.unit ![0, 0] S128x128.size inb_S128x128_S128x128_0_0).toLoadRect (h2.unread x1) = x1 := by
    rw [View.readAt_eq_ld, h2.read_unread, View.ld_unit_zero off_zero]
  have e3 : View.readAt (Elt F) a3.view (Rect.unit ![0, 0] S600x10000.size inb_S600x10000_S600x10000_0_0).toLoadRect (h3.unread x2) = x2 := by
    rw [View.readAt_eq_ld, h3.read_unread, View.ld_unit_zero off_zero]
  sl_exec (disch := exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr
    swap; · iexact H3
    ipureintro
    sl_unfold_words
    rw [View.readCov_unit_zero _ off_zero]
    exact read_store_whole _ _ off_zero _ _
  · iexists _; isplitr
    swap; · iexact H5
    ipureintro
    sl_unfold_words
    exact read_store_whole _ _ off_zero _ _

/-- A LATER POINT. The scratch holds xs and is only read: the body stores the rectified product of x2 with xs in the
    result's block and leaves everything else as it was. -/
theorem run_rest (c : Dev nD) (i : grid0.Coords) (hc : ¬isFirst i)
    (a1 : Memref sig .tc .vmem S10000x128 .f32) (h1 : a1.IsWhole) (a2 : Memref sig .tc .vmem S128x128 .f32) (h2 : a2.IsWhole)
    (a3 : Memref sig .tc .vmem S600x10000 .f32) (h3 : a3.IsWhole) (a4 : Memref sig .tc .vmem S600x128 .f32) (h4 : a4.IsWhole)
    (a5 : Memref sig .tc .vmem S10000x128 .f32) (h5 : a5.IsWhole)
    (x0 : Vec F S10000x128 .f32) (x1 : Vec F S128x128 .f32) (x2 : Vec F S600x10000 .f32) (xs : Vec F S10000x128 .f32) (E : Set ℕ) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ owns (c : Thread nD τ) a5 fullShare xs
        ∗ (iprop(owns (c : Thread nD τ) a1 fullShare x0 ∗ owns (c : Thread nD τ) a2 fullShare x1 ∗ owns (c : Thread nD τ) a3 fullShare x2
            ∗ owns (c : Thread nD τ) a4 fullShare (k0_pay2 x2 xs) ∗ owns (c : Thread nD τ) a5 fullShare xs) -∗ K ⟨⟩))
      ⊢ wp frame (wpE (defs₀ (F := F)) Variants.none c none) E (cc0__gcn_kernel i a1 h1 a2 h2 a3 h3 a4 h4 a5 h5) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, ⟨%f5, %hf5, H5⟩, Hk⟩
  obtain rfl := h1.eq_unread hf0; obtain rfl := h2.eq_unread hf1; obtain rfl := h3.eq_unread hf2; obtain rfl := h5.eq_unread hf5
  sl_exec (disch := exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr
    swap; · iexact H3
    ipureintro
    rw [read_store_whole _ _ off_zero _ _]
    simp only [View.readAt_eq_ld, h3.read_unread, h5.read_unread, View.ld_unit_zero (S := S10000x128) off_zero,
      View.ld_unit_zero (S := S600x10000) off_zero]
  · iexists _; isplitr; · ipureintro; exact h5.read_unread _
    iexact H5

end Cert.KernelIdeal.Body

end
-- ==== Proof.Spec.lean ====
/-
  The mathematics both programs compute, stated once over the argument arrays, index by index, on the extended reals.
  For a feature matrix X (10000 × 128), a dense adjacency matrix A (10000 × 10000) and a weight matrix W (128 × 128):
  the projected features (X·W)[k, q] = Σ_l X[k, l] · W[l, q], and the layer's output
  out[r, q] = max (Σ_k A[r, k] · (X·W)[k, q]) 0 — a graph-convolution layer followed by the rectifier.
  The sums are over the coordinate ranges `Fin 128` and `Fin 10000`, so neither side's dimension-number records appear.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The feature matrices' index set (10000 rows of 128 lanes), the adjacency matrix's and the weight matrix's. -/
abbrev SX : Shape := ⟨2, ![10000, 128]⟩
abbrev SA : Shape := ⟨2, ![10000, 10000]⟩
abbrev SW : Shape := ⟨2, ![128, 128]⟩

/-- The projected features X·W: entry (k, q) is the sum over the 128 input features l of X[k, l] · W[l, q]. -/
def xw (X : SX.Idx → EReal) (W : SW.Idx → EReal) : SX.Idx → EReal :=
  fun j => ∑ l : Fin 128, X (ix2 (n0 := 10000) (n1 := 128) (j 0) l) * W (ix2 (n0 := 128) (n1 := 128) l (j 1))

/-- The aggregated features A·(X·W) before the rectifier: entry (r, q) sums A[r, k] · (X·W)[k, q] over the 10000 nodes k. -/
def agg (X : SX.Idx → EReal) (A : SA.Idx → EReal) (W : SW.Idx → EReal) : SX.Idx → EReal :=
  fun i => ∑ k : Fin 10000, A (ix2 (n0 := 10000) (n1 := 10000) (i 0) k) * xw X W (ix2 (n0 := 10000) (n1 := 128) k (i 1))

/-- The layer's output: the rectifier, as the maximum with the zero word's value, of the aggregated features. -/
def out (X : SX.Idx → EReal) (A : SA.Idx → EReal) (W : SW.Idx → EReal) : FVec Ideal SX .f32 :=
  maximumf (F := Ideal) (agg X A W : FVec Ideal SX .f32) (fun _ => Ideal.ofBits .f32 0x00000000#32)

theorem out_apply (X : SX.Idx → EReal) (A : SA.Idx → EReal) (W : SW.Idx → EReal) (i : SX.Idx) :
    out X A W i = FloatOps.maximumf (F := Ideal) (φ := .f32) (agg X A W i) (Ideal.ofBits .f32 0x00000000#32) := rfl

end Cert.Spec

end
-- ==== Proof.IdealMath.lean ====
/-
  The idealized kernel's arithmetic read at an index, on the extended reals, where every operation is exact.
  The kernel body has two pure values. The first is the projection X·W: a matrix product of the feature matrix
  X (10000 × 128) with the weight matrix W (128 × 128) added into a zero accumulator, then a shape cast between
  equal shapes. The second is the rectified aggregation: the product of one block B of 600 rows of the adjacency
  matrix (600 × 10000) with the projected features H (10000 × 128), added into a zero accumulator, then the maximum
  with the zero word's value.
  A matrix product at an output index (p, q) is the sum, over the contraction index, of the left operand at the
  left operand index times the right operand at the right operand index. With one contracted axis the contraction
  index is its one coordinate l, and the dimension numbers (contract axis 1 of the left with axis 0 of the right,
  keep axis 0 of the left and axis 1 of the right) make the two operand indices (p, l) and (l, q).
  So the first value is the specification's X·W, and entry (p, q) of the second reads only row p of the block B:
  if that row is row r of the adjacency matrix A, the entry is the specification's output at (r, q), whatever
  the block's other rows hold.
-/
import proofs.«179994_g53772990545976_cont_sun_m_1082_14_alg».proof.Proof.Gen.KernelIdeal
import proofs.«179994_g53772990545976_cont_sun_m_1082_14_alg».proof.Proof.Gen.KernelIdeal.Skeleton
import proofs.«179994_g53772990545976_cont_sun_m_1082_14_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Math

open Cert.KernelIdeal Cert.KernelIdeal.Gen Idealize.ShloMosaic Idealize.ShloMosaic.ValueIdx

/-! ## The projection's dimension numbers: the operand indices, coordinate by coordinate -/

/-- Axis 0 of the left operand index is a kept axis: it is the output's row. -/
theorem lhs_xw_0 (j : S10000x128.Idx) (c : dot_S10000x128_S128x128_S10000x128_1_0_0_1_n_n.contr.Idx) :
    (dot_S10000x128_S128x128_S10000x128_1_0_0_1_n_n.lhsIdx j c 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- Axis 1 of the left operand index is the contracted axis: it is the contraction coordinate. -/
theorem lhs_xw_1 (j : S10000x128.Idx) (c : dot_S10000x128_S128x128_S10000x128_1_0_0_1_n_n.contr.Idx) :
    (dot_S10000x128_S128x128_S10000x128_1_0_0_1_n_n.lhsIdx j c 1).val = (c ⟨0, by decide⟩).val :=
  dot_S10000x128_S128x128_S10000x128_1_0_0_1_n_n.lhsIdx_val_of_single rfl j c
/-- Axis 0 of the right operand index is the contracted axis: it is the contraction coordinate. -/
theorem rhs_xw_0 (j : S10000x128.Idx) (c : dot_S10000x128_S128x128_S10000x128_1_0_0_1_n_n.contr.Idx) :
    (dot_S10000x128_S128x128_S10000x128_1_0_0_1_n_n.rhsIdx j c 0).val = (c ⟨0, by decide⟩).val :=
  dot_S10000x128_S128x128_S10000x128_1_0_0_1_n_n.rhsIdx_val_of_single rfl j c
/-- Axis 1 of the right operand index is a kept axis: it is the output's column. -/
theorem rhs_xw_1 (j : S10000x128.Idx) (c : dot_S10000x128_S128x128_S10000x128_1_0_0_1_n_n.contr.Idx) :
    (dot_S10000x128_S128x128_S10000x128_1_0_0_1_n_n.rhsIdx j c 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The projection's matrix product into the zero accumulator, at the output index (p, q): the sum over the 128
    input features l of X[p, l] · W[l, q]. The sum over the contraction index is re-indexed by its one coordinate. -/
theorem xw_matmul_apply (X : FVec Ideal S10000x128 .f32) (W : FVec Ideal S128x128 .f32) (p : Fin 10000) (q : Fin 128) :
    FloatOps.matmul dot_S10000x128_S128x128_S10000x128_1_0_0_1_n_n none X W (constant (F := Ideal) S10000x128 .f32 0x00000000#32) (ix2 p q)
      = ∑ l : Fin 128, X (ix2 p l) * W (ix2 l q) := by
  rw [Ideal.matmul_constant_zero_apply, ← Equiv.sum_comp (contrEquiv1 dot_S10000x128_S128x128_S10000x128_1_0_0_1_n_n 128 rfl rfl).symm]
  refine Finset.sum_congr rfl fun l _ => ?_
  have hl := contrEquiv1_symm_val dot_S10000x128_S128x128_S10000x128_1_0_0_1_n_n 128 rfl rfl l
  have el : dot_S10000x128_S128x128_S10000x128_1_0_0_1_n_n.lhsIdx (ix2 p q) ((contrEquiv1 dot_S10000x128_S128x128_S10000x128_1_0_0_1_n_n 128 rfl rfl).symm l) = ix2 p l := funext fun a => Fin.ext (by
    match a with
    | ⟨0, _⟩ => exact lhs_xw_0 _ _
    | ⟨1, _⟩ => exact (lhs_xw_1 _ _).trans hl)
  have er : dot_S10000x128_S128x128_S10000x128_1_0_0_1_n_n.rhsIdx (ix2 p q) ((contrEquiv1 dot_S10000x128_S128x128_S10000x128_1_0_0_1_n_n 128 rfl rfl).symm l) = ix2 l q := funext fun a => Fin.ext (by
    match a with
    | ⟨0, _⟩ => exact (rhs_xw_0 _ _).trans hl
    | ⟨1, _⟩ => exact rhs_xw_1 _ _)
  rw [el, er]

/-- The kernel's first value is the specification's projected features X·W: the shape cast between equal shapes
    is the identity, and the product into the zero accumulator is the sum above. -/
theorem pay1_eq (X : FVec Ideal S10000x128 .f32) (W : FVec Ideal S128x128 .f32) :
    Gen.k0_pay1 (F := Ideal) X W = Cert.Spec.xw X W := by
  funext j
  obtain ⟨p, q, rfl⟩ : ∃ (p : Fin 10000) (q : Fin 128), j = ix2 p q := ⟨j 0, j 1, eq_ix2 j⟩
  show shapeCast S10000x128 (FloatOps.matmul dot_S10000x128_S128x128_S10000x128_1_0_0_1_n_n none X W (constant (F := Ideal) S10000x128 .f32 0x00000000#32))
      shapeCasts_S10000x128_S10000x128 (ix2 p q) = _
  rw [shapeCast_self, xw_matmul_apply]
  rfl

/-! ## The aggregation's dimension numbers: the operand indices, coordinate by coordinate -/

/-- Axis 0 of the left operand index is a kept axis: it is the output's row within the block. -/
theorem lhs_agg_0 (j : S600x128.Idx) (c : dot_S600x10000_S10000x128_S600x128_1_0_0_1_n_n.contr.Idx) :
    (dot_S600x10000_S10000x128_S600x128_1_0_0_1_n_n.lhsIdx j c 0).val = (j 0).val := by
  unfold DotDims.lhsIdx
  rw [dif_neg (show ¬(0 : Fin S600x10000.rank) ∈ dot_S600x10000_S10000x128_S600x128_1_0_0_1_n_n.lhsBatch by decide), dif_pos (show (0 : Fin S600x10000.rank) ∈ dot_S600x10000_S10000x128_S600x128_1_0_0_1_n_n.lhsNonContracting by decide)]
  rfl
/-- Axis 1 of the left operand index is the contracted axis: it is the contraction coordinate. -/
theorem lhs_agg_1 (j : S600x128.Idx) (c : dot_S600x10000_S10000x128_S600x128_1_0_0_1_n_n.contr.Idx) :
    (dot_S600x10000_S10000x128_S600x128_1_0_0_1_n_n.lhsIdx j c 1).val = (c ⟨0, by decide⟩).val :=
  dot_S600x10000_S10000x128_S600x128_1_0_0_1_n_n.lhsIdx_val_of_single rfl j c
/-- Axis 0 of the right operand index is the contracted axis: it is the contraction coordinate. -/
theorem rhs_agg_0 (j : S600x128.Idx) (c : dot_S600x10000_S10000x128_S600x128_1_0_0_1_n_n.contr.Idx) :
    (dot_S600x10000_S10000x128_S600x128_1_0_0_1_n_n.rhsIdx j c 0).val = (c ⟨0, by decide⟩).val :=
  dot_S600x10000_S10000x128_S600x128_1_0_0_1_n_n.rhsIdx_val_of_single rfl j c
/-- Axis 1 of the right operand index is a kept axis: it is the output's column. -/
theorem rhs_agg_1 (j : S600x128.Idx) (c : dot_S600x10000_S10000x128_S600x128_1_0_0_1_n_n.contr.Idx) :
    (dot_S600x10000_S10000x128_S600x128_1_0_0_1_n_n.rhsIdx j c 1).val = (j 1).val := by
  unfold DotDims.rhsIdx
  rw [dif_neg (show ¬(1 : Fin S10000x128.rank) ∈ dot_S600x10000_S10000x128_S600x128_1_0_0_1_n_n.rhsBatch by decide), dif_pos (show (1 : Fin S10000x128.rank) ∈ dot_S600x10000_S10000x128_S600x128_1_0_0_1_n_n.rhsNonContracting by decide)]
  rfl

/-- The aggregation's matrix product into the zero accumulator, at the output index (p, q) of a block: the sum over
    the 10000 nodes k of B[p, k] · H[k, q]. Only row p of the block B is read. -/
theorem agg_matmul_apply (B : FVec Ideal S600x10000 .f32) (H : FVec Ideal S10000x128 .f32) (p : Fin 600) (q : Fin 128) :
    FloatOps.matmul dot_S600x10000_S10000x128_S600x128_1_0_0_1_n_n none B H (constant (F := Ideal) S600x128 .f32 0x00000000#32) (ix2 p q)
      = ∑ k : Fin 10000, B (ix2 p k) * H (ix2 k q) := by
  rw [Ideal.matmul_constant_zero_apply, ← Equiv.sum_comp (contrEquiv1 dot_S600x10000_S10000x128_S600x128_1_0_0_1_n_n 10000 rfl rfl).symm]
  refine Finset.sum_congr rfl fun k _ => ?_
  have hk := contrEquiv1_symm_val dot_S600x10000_S10000x128_S600x128_1_0_0_1_n_n 10000 rfl rfl k
  have el : dot_S600x10000_S10000x128_S600x128_1_0_0_1_n_n.lhsIdx (ix2 p q) ((contrEquiv1 dot_S600x10000_S10000x128_S600x128_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S600x10000_S10000x128_S600x128_1_0_0_1_n_n.rhsIdx (ix2 p q) ((contrEquiv1 dot_S600x10000_S10000x128_S600x128_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-- The kernel's second value at (p, q): the maximum, with the zero word's value, of the sum over the nodes k of
    B[p, k] · H[k, q]. The maximum and the broadcast scalar read through at an index by definition. -/
theorem pay2_row (B : FVec Ideal S600x10000 .f32) (H : FVec Ideal S10000x128 .f32) (p : Fin 600) (q : Fin 128) :
    Gen.k0_pay2 (F := Ideal) B H (ix2 p q)
      = FloatOps.maximumf (F := Ideal) (φ := .f32) (∑ k : Fin 10000, B (ix2 p k) * H (ix2 k q)) (Ideal.ofBits .f32 0x00000000#32) := by
  show FloatOps.maximumf (F := Ideal) (φ := .f32)
      (FloatOps.matmul dot_S600x10000_S10000x128_S600x128_1_0_0_1_n_n none B H (constant (F := Ideal) S600x128 .f32 0x00000000#32) (ix2 p q))
      (Ideal.ofBits .f32 0x00000000#32) = _
  rw [agg_matmul_apply]

/-- If row p of the block B is row r of the adjacency matrix A, the kernel's second value over the kernel's first
    value, at (p, q), is the specification's output at (r, q): the two sums agree term by term. -/
theorem pay2_eq_out (X : FVec Ideal S10000x128 .f32) (A : FVec Ideal S10000x10000 .f32) (W : FVec Ideal S128x128 .f32)
    (B : FVec Ideal S600x10000 .f32) (b : Nat) (p : Fin 600) (q : Fin 128) (r : Fin 10000)
    (hr : r.val = b * 600 + p.val) (hB : ∀ k : Fin 10000, B (ix2 p k) = A (ix2 r k)) :
    Gen.k0_pay2 (F := Ideal) B (Gen.k0_pay1 (F := Ideal) X W) (ix2 p q) = Cert.Spec.out X A W (ix2 r q) := by
  rw [pay2_row, pay1_eq, Cert.Spec.out_apply]
  refine congrArg (fun s => FloatOps.maximumf (F := Ideal) (φ := .f32) s (Ideal.ofBits .f32 0x00000000#32)) ?_
  show _ = ∑ k : Fin 10000, A (ix2 r k) * Cert.Spec.xw X W (ix2 k q)
  exact Finset.sum_congr rfl fun k _ => by rw [hB k]

end Cert.KernelIdeal.Math

end
-- ==== Proof.IdealFrame.lean ====
/-
  The idealized kernel's run: the proof data of its one pipeline, the body's obligation at every grid point, the launch,
  and the result array read as the layer's output of Spec.

  The grid walks 17 row blocks of 600 rows of the adjacency matrix A (10000 rows: the last block holds 400 rows of the array,
  its other 200 rows of the staging buffer hold words nothing names). At the first point the body leaves H = X·W in its
  scratch, where every later point finds it; at every point it stores max(Ablock·H, 0) into the result's staging block,
  whose rows inside the array the pipeline writes back. Row p of Ablock·H depends on row p of Ablock alone, so the rows
  written back are rows of relu(A·(X·W)), whatever the staging tail held; the 17 blocks cover the 10000 rows.
-/
import proofs.«179994_g53772990545976_cont_sun_m_1082_14_alg».proof.Defs
import proofs.«179994_g53772990545976_cont_sun_m_1082_14_alg».proof.Proof.Gen.Pre_finite_inputs
import proofs.«179994_g53772990545976_cont_sun_m_1082_14_alg».proof.Proof.IdealRun
import proofs.«179994_g53772990545976_cont_sun_m_1082_14_alg».proof.Proof.IdealMath
import proofs.«179994_g53772990545976_cont_sun_m_1082_14_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄ᵢ" => MT nD τ sig Unit (Elt Ideal) ℕ (UR sig nD τ) ℕ

variable (m : (ℓ : Loc nD τ sig) → Buf (Elt Ideal) ℓ) (ρ : Dev nD → PrngReg)

/-! ## The argument arrays, the scratch's contents, the output -/

abbrev Xarr (c : Dev nD) : FVec Ideal S10000x128 .f32 := V m c main_arg0
abbrev Aarr (c : Dev nD) : FVec Ideal S10000x10000 .f32 := V m c main_arg1
abbrev Warr (c : Dev nD) : FVec Ideal S128x128 .f32 := V m c main_arg2

/-- What the scratch holds from the first point on: the body's product X·W. -/
abbrev Hs (c : Dev nD) : FVec Ideal S10000x128 .f32 := k0_pay1 (F := Ideal) (Xarr m c) (Warr m c)

/-- The layer's output over the argument arrays. -/
abbrev Gout (c : Dev nD) : FVec Ideal S10000x128 .f32 := Cert.Spec.out (Xarr m c) (Aarr m c) (Warr m c)

/-! ## Where the blocks sit -/

theorem hN (t : Fin cfg0.N) : t.val < 17 := lt_of_lt_of_eq t.isLt N_0

theorem index0 : ∀ (t : Fin cfg0.N) (a : Fin 2), win0_0.index t a = 0 :=
  (by decide +kernel : ∀ (t : Fin grid0.N) (a : Fin 2), win0_0.index t a = 0)
theorem index1 : ∀ (t : Fin cfg0.N) (a : Fin 2), win0_1.index t a = 0 :=
  (by decide +kernel : ∀ (t : Fin grid0.N) (a : Fin 2), win0_1.index t a = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem xsize2 : ∀ t : Fin cfg0.N, win0_2.xsize (grid0.coords t) 0 = min 600 (10000 - 600 * t.val) ∧ win0_2.xsize (grid0.coords t) 1 = 10000 :=
  (by decide +kernel : ∀ t : Fin grid0.N, win0_2.xsize (grid0.coords t) 0 = min 600 (10000 - 600 * t.val) ∧ win0_2.xsize (grid0.coords t) 1 = 10000)
theorem xsize3 : ∀ t : Fin cfg0.N, win0_3.xsize (grid0.coords t) 0 = min 600 (10000 - 600 * t.val) ∧ win0_3.xsize (grid0.coords t) 1 = 128 :=
  (by decide +kernel : ∀ t : Fin grid0.N, win0_3.xsize (grid0.coords t) 0 = min 600 (10000 - 600 * t.val) ∧ win0_3.xsize (grid0.coords t) 1 = 128)

/-- The feature matrix's one block is the array. -/
theorem iblk0_eq (c : Dev nD) (t : Fin cfg0.N) : (iblk m c 0 t : FVec Ideal S10000x128 .f32) = Xarr m c := by
  funext y
  show V m c main_arg0 (((cfg0.win 0).blk t).view.emb y) = V m c main_arg0 y
  refine congrArg _ (funext fun a => Fin.ext ?_)
  show win0_0.index t a * S10000x128.size a + 1 * (y a).val = (y a).val
  rw [index0 t a]; omega

/-- The weight matrix's one block is the array. -/
theorem iblk1_eq (c : Dev nD) (t : Fin cfg0.N) : (iblk m c 1 t : FVec Ideal S128x128 .f32) = Warr m c := by
  funext y
  show V m c main_arg2 (((cfg0.win 1).blk t).view.emb y) = V m c main_arg2 y
  refine congrArg _ (funext fun a => Fin.ext ?_)
  show win0_1.index t a * S128x128.size a + 1 * (y a).val = (y a).val
  rw [index1 t a]; omega

/-! ## The proof data -/

/-- The region's invariant before position n: before the first point the scratch holds anything; afterwards X·W. -/
def PhiS (c : Dev nD) : ℕ → sProp 𝕄ᵢ
  | 0 => Pipeline.ΦA spec0 c
  | _ + 1 => iprop(iprop(owns (c : Thread nD τ) (Memref.whole cc0_scratch0 : Memref sig .tc .vmem S10000x128 .f32) fullShare (Hs m c)) ∗ (∃ r, prngReg c r))

theorem PhiS_zero (c : Dev nD) : PhiS m c 0 = Pipeline.ΦA spec0 c := rfl
theorem PhiS_succ (c : Dev nD) (n : ℕ) : PhiS m c (n + 1)
    = iprop(iprop(owns (c : Thread nD τ) (Memref.whole cc0_scratch0 : Memref sig .tc .vmem S10000x128 .f32) fullShare (Hs m c)) ∗ (∃ r, prngReg c r)) := rfl
theorem PhiS_pos (c : Dev nD) (n : ℕ) (h : n ≠ 0) : PhiS m c n
    = iprop(iprop(owns (c : Thread nD τ) (Memref.whole cc0_scratch0 : Memref sig .tc .vmem S10000x128 .f32) fullShare (Hs m c)) ∗ (∃ r, prngReg c r)) := by
  cases n with
  | zero => exact absurd rfl h
  | succ n => rfl

theorem PhiA_eq (c : Dev nD) :
    (Pipeline.ΦA spec0 c : sProp 𝕄ᵢ)
      = iprop(iprop((∃ d, owns (c : Thread nD τ) (Memref.whole cc0_scratch0 : Memref sig .tc .vmem S10000x128 .f32) fullShare d)) ∗ (∃ r, prngReg c r)) := by
  unfold Pipeline.ΦA; rw [scopedRest0_eq]; simp only [owns_whole]; try rfl

/-- A's block at point t as the fetch reads it: its rows inside the array; -/
def adjblk (c : Dev nD) (t : Fin cfg0.N) : (win0_2.xblock (grid0.coords t)).Idx → Elt Ideal .f32 := iblk m c 2 t
/-- the same filled out to the staging buffer's 600 rows with the zero word, which nothing reads; -/
def adjblk600 (c : Dev nD) (t : Fin cfg0.N) : S600x10000.Idx → Elt Ideal .f32 :=
  win0_2.fill (grid0.coords t) (fun _ => Scalar.ofBits (F := Ideal) .f32 0#32) (adjblk m c t)
/-- the layer's output read through the result's block at point t: its rows inside the array; -/
def outblk (c : Dev nD) (t : Fin cfg0.N) : (win0_3.xblock (grid0.coords t)).Idx → Elt Ideal .f32 :=
  (win0_3.blk t).view.read (Elt Ideal) (Gout m c)
/-- the same filled out to 600 rows. -/
def outblk600 (c : Dev nD) (t : Fin cfg0.N) : S600x128.Idx → Elt Ideal .f32 :=
  win0_3.fill (grid0.coords t) (fun _ => Scalar.ofBits (F := Ideal) .f32 0#32) (outblk m c t)

/-- After the body at point t: X's and W's staging buffers hold the arrays; A's holds its block's rows inside the array
    (filled out with the zero word, which nothing reads); the result's holds that block of the layer's output. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjblk600 m c t
    | ⟨3, _⟩ => outblk600 m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = adjblk600 m c t := by dsimp only [dats]
theorem after_3 (c : Dev nD) (t : Fin cfg0.N) : (dats m 0 c).after 3 t = outblk600 m c t := by dsimp only [dats]
theorem cut_adjblk600 (c : Dev nD) (t : Fin cfg0.N) : win0_2.cut (grid0.coords t) (adjblk600 m c t) = adjblk m c t :=
  win0_2.cut_fill _ _ _
theorem cut_outblk600 (c : Dev nD) (t : Fin cfg0.N) : win0_3.cut (grid0.coords t) (outblk600 m c t) = outblk m c t :=
  win0_3.cut_fill _ _ _

/-- What the body finds in each staging buffer. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) :
    (dats m 0 c).before 2 t d = win0_2.fill (grid0.coords t) d (adjblk m c t) := by
  rw [(dats m 0 c).before_fetched 2 t (fetch0_2 t) d]
  unfold Dat.fetched Dat.blockOf adjblk iblk; rw [A_eq]; try rfl
theorem before_3 (c : Dev nD) (t : Fin cfg0.N) (d) : (dats m 0 c).before 3 t d = d := by
  refine (dats m 0 c).before_out_reset 3 rfl t ?_ d
  by_cases h : t.val = 0
  · exact .inl h
  · exact .inr ⟨h, flush0_3 _⟩

/-! ## The rows written back are rows of the layer's output -/

/-- A coordinate inside point t's result block: its row is below the block's rows inside the array, its lane below 128. -/
theorem coords3 (t : Fin cfg0.N) (y : (win0_3.xblock (grid0.coords t)).Idx) :
    (y 0).val < min 600 (10000 - 600 * t.val) ∧ (y 1).val < 128 := by
  have h0 : (y 0).val < win0_3.xsize (grid0.coords t) 0 := (y 0).isLt
  have h1 : (y 1).val < win0_3.xsize (grid0.coords t) 1 := (y 1).isLt
  have e := xsize3 t
  omega

/-- Where an element of the result's block sits in the array, axis by axis; likewise of A's block. -/
theorem emb3 (t : Fin cfg0.N) (y : (win0_3.xblock (grid0.coords t)).Idx) (a : Fin 2) :
    (((win0_3.blk t).view.emb y) a : Nat) = win0_3.index t a * win0_3.size a + (y a).val :=
  win0_3.rect_emb_val t y a
theorem emb2 (t : Fin cfg0.N) (y : (win0_2.xblock (grid0.coords t)).Idx) (a : Fin 2) :
    (((win0_2.blk t).view.emb y) a : Nat) = win0_2.index t a * win0_2.size a + (y a).val :=
  win0_2.rect_emb_val t y a

/-- A block read through its window is the array at the element's place. -/
theorem outblk_apply (c : Dev nD) (t : Fin cfg0.N) (y : (win0_3.xblock (grid0.coords t)).Idx) :
    outblk m c t y = Gout m c ((win0_3.blk t).view.emb y) := rfl
theorem adjblk_apply (c : Dev nD) (t : Fin cfg0.N) (y : (win0_2.xblock (grid0.coords t)).Idx) :
    adjblk m c t y = Aarr m c ((win0_2.blk t).view.emb y) := rfl

/-- Row p of A's staged block at point t, for p among the block's rows inside the array, is row 600·t + p of A, whatever
    filled the rest of the buffer. -/
theorem adj_row (c : Dev nD) (t : Fin cfg0.N) (d2 : S600x10000.Idx → Elt Ideal .f32) (p : Fin 600) (k r : Fin 10000)
    (hp : p.val < min 600 (10000 - 600 * t.val)) (hr : r.val = 600 * t.val + p.val) :
    win0_2.fill (grid0.coords t) d2 (adjblk m c t) (ix2 p k : S600x10000.Idx) = Aarr m c (ix2 r k : S10000x10000.Idx) := by
  have hm : win0_2.moved (grid0.coords t) (ix2 p k : S600x10000.Idx) = true :=
    (win0_2.moved_iff _ _).mpr fun a => by
      match a with
      | ⟨0, _⟩ => show p.val < win0_2.xsize (grid0.coords t) 0; rw [(xsize2 t).1]; exact hp
      | ⟨1, _⟩ => show k.val < win0_2.xsize (grid0.coords t) 1; rw [(xsize2 t).2]; exact k.isLt
  let y' : (win0_2.xblock (grid0.coords t)).Idx :=
    fun a => ⟨((ix2 p k : S600x10000.Idx) a).val, (win0_2.moved_iff _ _).mp hm a⟩
  have h1 : win0_2.fill (grid0.coords t) d2 (adjblk m c t) (ix2 p k : S600x10000.Idx) = adjblk m c t y' :=
    win0_2.fill_xinj _ d2 (adjblk m c t) y'
  have f0 : (((win0_2.blk t).view.emb y') 0 : Nat) = r.val := by
    rw [emb2 t y' 0, (index2 t).1, hr]; show t.val * 600 + p.val = _; omega
  have f1 : (((win0_2.blk t).view.emb y') 1 : Nat) = k.val := by
    rw [emb2 t y' 1, (index2 t).2]; show 0 * 10000 + k.val = _; omega
  rw [h1, adjblk_apply]
  exact congrArg (Aarr m c) (funext fun a => Fin.ext (by match a with | ⟨0, _⟩ => exact f0 | ⟨1, _⟩ => exact f1))

/-- Point t's result block, on its rows inside the array, is that block of relu(A·(X·W)): row p of the staged product
    is a sum along row p of A's staged block, which inside the array is row 600·t + p of A, whatever the tail holds. -/
theorem out_block (c : Dev nD) (t : Fin cfg0.N) (d2 : S600x10000.Idx → Elt Ideal .f32) :
    win0_3.cut (grid0.coords t) (k0_pay2 (F := Ideal) (win0_2.fill (grid0.coords t) d2 (adjblk m c t)) (Hs m c))
      = outblk m c t := by
  funext y
  obtain ⟨hy0, hy1⟩ := coords3 t y
  have hN := hN t
  have hp : (y 0).val < 600 := by omega
  have hr : 600 * t.val + (y 0).val < 10000 := by omega
  have eL : win0_3.xinj (grid0.coords t) y = (ix2 (⟨(y 0).val, hp⟩ : Fin 600) (⟨(y 1).val, hy1⟩ : Fin 128) : S600x128.Idx) :=
    funext fun a => by match a with | ⟨0, _⟩ => rfl | ⟨1, _⟩ => rfl
  have e0 : (((win0_3.blk t).view.emb y) 0 : Nat) = 600 * t.val + (y 0).val := by
    rw [emb3 t y 0, (index3 t).1]; show t.val * 600 + (y 0).val = _; omega
  have e1 : (((win0_3.blk t).view.emb y) 1 : Nat) = (y 1).val := by
    rw [emb3 t y 1, (index3 t).2]; show 0 * 128 + (y 1).val = _; omega
  have eR : (win0_3.blk t).view.emb y
      = (ix2 (⟨600 * t.val + (y 0).val, hr⟩ : Fin 10000) (⟨(y 1).val, hy1⟩ : Fin 128) : S10000x128.Idx) :=
    funext fun a => Fin.ext (by match a with | ⟨0, _⟩ => exact e0 | ⟨1, _⟩ => exact e1)
  rw [outblk_apply, eR]
  show k0_pay2 (F := Ideal) (win0_2.fill (grid0.coords t) d2 (adjblk m c t)) (Hs m c) (win0_3.xinj (grid0.coords t) y) = _
  rw [eL]
  refine Cert.KernelIdeal.Math.pay2_eq_out (Xarr m c) (Aarr m c) (Warr m c) _ t.val ⟨(y 0).val, hp⟩ ⟨(y 1).val, hy1⟩
    ⟨600 * t.val + (y 0).val, hr⟩ (by show 600 * t.val + (y 0).val = t.val * 600 + (y 0).val; omega) (fun k => ?_)
  exact adj_row m c t d2 ⟨(y 0).val, hp⟩ k ⟨600 * t.val + (y 0).val, hr⟩ hy0 rfl

/-! ## The body's obligation -/

/-- What the body is called with at point t, the windows one by one, -/
def bodyPre (c : Dev nD) (t : Fin cfg0.N) : sProp 𝕄ᵢ :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the two clipped windows' buffers stated on their rows inside the array only. -/
def bodyPost (c : Dev nD) (t : Fin cfg0.N) : sProp 𝕄ᵢ :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, after_0, after_1, after_2, after_3, iblk0_eq, iblk1_eq]
  rw [cut_adjblk600 m c t, cut_outblk600 m c t]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hcut : ∀ d2, win0_3.fill (grid0.coords t) (k0_pay2 (F := Ideal) (win0_2.fill (grid0.coords t) d2 (adjblk m c t)) (Hs m c))
        (outblk m c t)
      = k0_pay2 (F := Ideal) (win0_2.fill (grid0.coords t) d2 (adjblk m c t)) (Hs m c) := fun d2 => by
    rw [← out_block m c t d2]; exact win0_3.fill_cut _ _
  by_cases hz : t.val = 0
  · rw [show PhiS m c t.val = Pipeline.ΦA spec0 c from by rw [hz]; rfl, PhiS_succ, PhiA_eq]
    iintro ⟨⟨HS, Hg⟩, Ho, ⟨%d0, H0⟩, ⟨%d1, H1⟩, ⟨%d2, H2⟩, ⟨%d3, H3⟩⟩
    iapply (run_first (F := Ideal) c (grid0.coords t) ((isFirst_iff t).mpr hz) _ _ _ _ _ _ _ _ _ _ (Xarr m c) (Warr m c)
      (win0_2.fill (grid0.coords t) d2 (adjblk m c t)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexists d2; iexact H2
    iexists (k0_pay2 (F := Ideal) (win0_2.fill (grid0.coords t) d2 (adjblk m c t)) (Hs m c))
    rw [hcut d2]; iexact H3
  · rw [PhiS_pos m c t.val hz, PhiS_succ]
    iintro ⟨⟨HS, Hg⟩, Ho, ⟨%d0, H0⟩, ⟨%d1, H1⟩, ⟨%d2, H2⟩, ⟨%d3, H3⟩⟩
    iapply (run_rest (F := Ideal) c (grid0.coords t) (fun h => hz ((isFirst_iff t).mp h)) _ _ _ _ _ _ _ _ _ _ (Xarr m c) (Warr m c)
      (win0_2.fill (grid0.coords t) d2 (adjblk m c t)) (Hs m c) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexists d2; iexact H2
    iexists (k0_pay2 (F := Ideal) (win0_2.fill (grid0.coords t) d2 (adjblk m c t)) (Hs m c))
    rw [hcut d2]; iexact H3

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The launch -/

theorem hin (c : Dev nD) : Pipeline.ΦA spec0 c ⊢ (dats m 0 c).Φ 0 := by
  show Pipeline.ΦA spec0 c ⊢ PhiS m c 0
  exact BI.Entails.refl _

theorem hout (c : Dev nD) : (dats m 0 c).Φ (Fin.last cfg0.N) ⊢ Pipeline.ΦA spec0 c := by
  have e : (Fin.last cfg0.N).val = 16 + 1 := N_0
  rw [show (dats m 0 c).Φ (Fin.last cfg0.N) = PhiS m c (Fin.last cfg0.N).val from rfl, e, PhiS_succ, PhiA_eq]
  iintro ⟨HS, Hg⟩
  isplitl [HS]; · iexists _; iexact HS
  iexact Hg

/-- Every weakly fair execution of the idealized kernel terminates, every array of the pipeline at what the proof data
    computes for it. -/
theorem run_main : θ_run defs (onTc (τ := τ) (main (F := Ideal))) (s₀ m ρ) (Pipeline.FramePost cfgs (dats m) 0 (V m)) :=
  Pipeline.θ_run_frame_track cfgs (dats m) 0 launch0 defs₀ Variants.none m ρ main
    (hbody := body_obligation m) (hshare := fun c => (dats m 0 c).share_full fun _ => rfl) (howed := fun _ _ => rfl)
    (V := V m) (hmain := hmain m Variants.none) (hA := fun c w => A_eq m c w) (hin := hin m) (hout := hout m)

/-! ## The result array -/

/-- Row i of the array lies in point t's block exactly when it is among the block's rows inside the array. -/
theorem mem_blk3 (t : Fin cfg0.N) (i : S10000x128.Idx) :
    i ∈ (win0_3.blk t).view.set ↔ 600 * t.val ≤ (i 0).val ∧ (i 0).val < 600 * t.val + min 600 (10000 - 600 * t.val) := by
  show i ∈ ((View.whole main_v0).slice (win0_3.rect t)).set ↔ _
  rw [View.set_slice_whole, Rect.mem_set_unit]
  have h1 : (i 1).val < 128 := (i 1).isLt
  have e0 : win0_3.index t 0 * win0_3.size 0 = 600 * t.val := by rw [(index3 t).1]; show t.val * 600 = _; omega
  have e1 : win0_3.index t 1 * win0_3.size 1 = 0 := by rw [(index3 t).2]; omega
  refine ⟨fun h => ?_, fun h a => ?_⟩
  · have h0 := h 0
    rw [e0, (xsize3 t).1] at h0
    exact h0
  · match a with
    | ⟨0, _⟩ =>
      show win0_3.index t 0 * win0_3.size 0 ≤ (i 0 : Nat) ∧ (i 0 : Nat) < win0_3.index t 0 * win0_3.size 0 + win0_3.xsize (grid0.coords t) 0
      rw [e0, (xsize3 t).1]; exact h
    | ⟨1, _⟩ =>
      show win0_3.index t 1 * win0_3.size 1 ≤ (i 1 : Nat) ∧ (i 1 : Nat) < win0_3.index t 1 * win0_3.size 1 + win0_3.xsize (grid0.coords t) 1
      rw [e1, (xsize3 t).2]; omega

/-- The result array ends holding the layer's output: every write-back writes its block of it, and the blocks' rows
    inside the array are the array's rows. -/
theorem final_out (c : Dev nD) : (dats m 0 c).arrAt 3 cfg0.N = Gout m c :=
  (dats m 0 c).arrAt_eq_of_cover 3 (Gout m c)
    (fun t _ => by
      show win0_3.cut (grid0.coords t) ((dats m 0 c).after 3 t) = _
      rw [after_3]; exact cut_outblk600 m c t)
    (fun i => by
      have hi : (i 0).val < 10000 := (i 0).isLt
      refine ⟨⟨(i 0).val / 600, lt_of_lt_of_eq (by omega) N_0.symm⟩, flush0_3 _, (mem_blk3 _ i).mpr ?_⟩
      show 600 * ((i 0).val / 600) ≤ (i 0).val ∧ (i 0).val < 600 * ((i 0).val / 600) + min 600 (10000 - 600 * ((i 0).val / 600))
      omega)

/-- The idealized kernel's run with its result named: the layer's output of the argument arrays. -/
theorem run_value : θ_run defs (onTc (τ := τ) (main (F := Ideal))) ⟨m, fun _ => 0, ρ⟩ (fun r => ∀ c : Dev nD,
      r.2.mem ((c.tc : Thread nD τ).loc main_v0)
        = Cert.Spec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final_out m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩) (run_main m ρ)

/-- The idealized kernel's frame. -/
theorem frame : Cert.frame_KernelIdeal := fun m ρ _ =>
  frame_of m ρ (dats m) (fun c w => A_eq m c w) (run_main m ρ)

end Cert.KernelIdeal.Body

end
-- ==== Proof.RefValue.lean ====
/-
  The reference program's result, read as the layer's output of Spec: relu (A · (X · W)) index by index on the extended reals.
-/
import proofs.«179994_g53772990545976_cont_sun_m_1082_14_alg».proof.Defs
import proofs.«179994_g53772990545976_cont_sun_m_1082_14_alg».proof.Proof.Gen.ReferenceIdeal
import proofs.«179994_g53772990545976_cont_sun_m_1082_14_alg».proof.Proof.Gen.ReferenceIdeal.Run
import proofs.«179994_g53772990545976_cont_sun_m_1082_14_alg».proof.Proof.Gen.ReferenceIdeal.Read
import proofs.«179994_g53772990545976_cont_sun_m_1082_14_alg».proof.Proof.Gen.Pre_finite_inputs
import proofs.«179994_g53772990545976_cont_sun_m_1082_14_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open scoped BigOperators
open Cert.ReferenceIdeal Cert.ReferenceIdeal.Gen Idealize.ShloMosaic Idealize.ShloMosaic.TcCoe Idealize.SL.Sem Idealize.ShloMosaic.StableHlo
open Idealize.ShloMosaic.ValueIdx

/-! ## The contraction indices as coordinates

Each product reads its left operand along a row and its right operand down a column. The generated index functions
give those positions coordinate by coordinate; here they are named by their two coordinates. -/

/-- The outer product, at output (r, q) and node k, reads the adjacency matrix at (r, k) … -/
theorem lidx_v1 (i : S10000x128.Idx) (k : Fin 10000) :
    Read.lidx_main_v1 i k = ix2 (n0 := 10000) (n1 := 10000) (i 0) k :=
  funext fun a => Fin.ext (by match a with | ⟨0, _⟩ => rfl | ⟨1, _⟩ => rfl)

/-- … and the projected features at (k, q). -/
theorem ridx_v1 (i : S10000x128.Idx) (k : Fin 10000) :
    Read.ridx_main_v1 i k = ix2 (n0 := 10000) (n1 := 128) k (i 1) :=
  funext fun a => Fin.ext (by match a with | ⟨0, _⟩ => rfl | ⟨1, _⟩ => rfl)

/-- The inner product, at output (k, q) and input feature l, reads the feature matrix at (k, l) … -/
theorem lidx_v0 (j : S10000x128.Idx) (l : Fin 128) :
    Read.lidx_main_v0 j l = ix2 (n0 := 10000) (n1 := 128) (j 0) l :=
  funext fun a => Fin.ext (by match a with | ⟨0, _⟩ => rfl | ⟨1, _⟩ => rfl)

/-- … and the weight matrix at (l, q). -/
theorem ridx_v0 (j : S10000x128.Idx) (l : Fin 128) :
    Read.ridx_main_v0 j l = ix2 (n0 := 128) (n1 := 128) l (j 1) :=
  funext fun a => Fin.ext (by match a with | ⟨0, _⟩ => rfl | ⟨1, _⟩ => rfl)

/-! ## The specification's sums, entry by entry -/

/-- (X·W)[k, q] = Σ_l X[k, l] · W[l, q]. -/
theorem xw_apply (X : FVec Ideal S10000x128 .f32) (W : FVec Ideal S128x128 .f32) (j : S10000x128.Idx) :
    Cert.Spec.xw X W j
      = ∑ l : Fin 128, X (ix2 (n0 := 10000) (n1 := 128) (j 0) l) * W (ix2 (n0 := 128) (n1 := 128) l (j 1)) := rfl

/-- (A·(X·W))[r, q] = Σ_k A[r, k] · (X·W)[k, q]. -/
theorem agg_apply (X : FVec Ideal S10000x128 .f32) (A : FVec Ideal S10000x10000 .f32) (W : FVec Ideal S128x128 .f32)
    (i : S10000x128.Idx) :
    Cert.Spec.agg X A W i
      = ∑ k : Fin 10000, A (ix2 (n0 := 10000) (n1 := 10000) (i 0) k)
          * Cert.Spec.xw X W (ix2 (n0 := 10000) (n1 := 128) k (i 1)) := rfl

/-! ## The two products are the specification's -/

/-- The first product, entry by entry, is the projected features: the same sum over the 128 input features, its
    terms read at the same positions. -/
theorem v0_apply (X : FVec Ideal S10000x128 .f32) (W : FVec Ideal S128x128 .f32) (j : S10000x128.Idx) :
    Read.val_main_v0 (F := Ideal) X W j = Cert.Spec.xw X W j := by
  rw [Read.val_main_v0_apply, xw_apply]
  refine Finset.sum_congr rfl fun l _ => ?_
  rw [lidx_v0, ridx_v0]

/-- The second product, entry by entry, is the aggregated features: the same sum over the 10000 nodes, each term the
    adjacency entry times the projected feature just identified. -/
theorem v1_apply (X : FVec Ideal S10000x128 .f32) (A : FVec Ideal S10000x10000 .f32) (W : FVec Ideal S128x128 .f32)
    (i : S10000x128.Idx) :
    Read.val_main_v1 (F := Ideal) X A W i = Cert.Spec.agg X A W i := by
  rw [Read.val_main_v1_apply, agg_apply]
  refine Finset.sum_congr rfl fun k _ => ?_
  rw [v0_apply, lidx_v1, ridx_v1]

/-! ## The result -/

/-- The reference's result term is the layer's output: at every entry the maximum of the aggregated feature and the
    value of the zero word. The word is the same on both sides and is never evaluated. -/
theorem result_eq (X : FVec Ideal S10000x128 .f32) (A : FVec Ideal S10000x10000 .f32) (W : FVec Ideal S128x128 .f32) :
    maximumf (F := Ideal)
        (Host.dotGeneral (F := Ideal) dot_S10000x10000_S10000x128_S10000x128_1_0_0_1_n_n none A
          (Host.dotGeneral (F := Ideal) dot_S10000x128_S128x128_S10000x128_1_0_0_1_n_n none X W))
        (broadcastInDim S10000x128 ![] bcast_S_S10000x128 (constant (F := Ideal) S_ .f32 0x00000000#32))
      = Cert.Spec.out X A W := by
  refine (Read.val_main_v2_eq (F := Ideal) X A W).trans ?_
  funext i
  rw [Read.val_main_v2_apply, Read.val_main_call0_v0_apply, Read.val_main_call0_cst_apply, v1_apply]
  exact (Cert.Spec.out_apply X A W i).symm

/-! ## The run and the frame -/

/-- Every weakly fair execution of the reference terminates with its result array at the layer's output of the
    argument arrays as they were at the launch, and the argument arrays unchanged. -/
theorem run_spec (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v2)
            = Cert.Spec.out
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  (θ_run Cert.ReferenceIdeal.defs _ _).mono
    (fun _ h c => ⟨(h c).1.trans (result_eq _ _ _), (h c).2⟩)
    (Cert.ReferenceIdeal.Value.run (F := Ideal) m ρ)

/-- The reference runs to the end and leaves its argument arrays as they were: its run with the result dropped. -/
theorem frame : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate of a graph-convolution layer: out = relu(A · (X · W)) for features X (10000 × 128), a dense adjacency
  matrix A (10000 × 10000) and weights W (128 × 128).

  The kernel walks A in 17 blocks of 600 rows. At the first block it forms H = X · W once and keeps it; at every block it
  multiplies the block's rows with H, takes the maximum with zero, and writes the rows back. The reference forms X · W,
  then A · (X · W), then the maximum with zero. Over the extended reals both are, entry by entry,
      out[r, q] = max (Σ_k A[r, k] · (Σ_l X[k, l] · W[l, q])) 0
  (Spec): a product into a zero accumulator and a host product are the same finite sum, and no law beyond rewriting under
  the sums is used, so the inputs' finiteness is never opened. The last block holds only 400 rows of A; the other 200 rows
  of its staging buffer hold words nothing names, but row p of a product depends on row p of the left factor alone, and only
  the rows inside the array are written back, so those words reach no entry of the result.

  The three frames: the word-level kernel's (KernelFrame: its body runs at every point whatever the buffers hold; nothing
  is said of the result's contents), the idealized kernel's (IdealFrame: the same run with the contents named) and the
  reference's (RefValue: its operations in order). The idealization rewrote no operation, so the preservation claim is
  trivial. The algebraic claim pairs the idealized kernel's run (IdealFrame.run_value) with the reference's
  (RefValue.run_spec): both results are Spec.out of the same three argument arrays.
-/
import proofs.«179994_g53772990545976_cont_sun_m_1082_14_alg».proof.Defs
import proofs.«179994_g53772990545976_cont_sun_m_1082_14_alg».proof.Proof.Gen.Kernel
import proofs.«179994_g53772990545976_cont_sun_m_1082_14_alg».proof.Proof.Gen.Kernel.Skeleton
import proofs.«179994_g53772990545976_cont_sun_m_1082_14_alg».proof.Proof.Gen.Kernel.Launch
import proofs.«179994_g53772990545976_cont_sun_m_1082_14_alg».proof.Proof.Gen.Kernel.Points
import proofs.«179994_g53772990545976_cont_sun_m_1082_14_alg».proof.Proof.Gen.Kernel.Frame
import proofs.«179994_g53772990545976_cont_sun_m_1082_14_alg».proof.Proof.Gen.KernelIdeal
import proofs.«179994_g53772990545976_cont_sun_m_1082_14_alg».proof.Proof.Gen.KernelIdeal.Skeleton
import proofs.«179994_g53772990545976_cont_sun_m_1082_14_alg».proof.Proof.Gen.KernelIdeal.Launch
import proofs.«179994_g53772990545976_cont_sun_m_1082_14_alg».proof.Proof.Gen.KernelIdeal.Points
import proofs.«179994_g53772990545976_cont_sun_m_1082_14_alg».proof.Proof.Gen.KernelIdeal.Frame
import proofs.«179994_g53772990545976_cont_sun_m_1082_14_alg».proof.Proof.Gen.ReferenceIdeal
import proofs.«179994_g53772990545976_cont_sun_m_1082_14_alg».proof.Proof.Gen.Pre_finite_inputs
import proofs.«179994_g53772990545976_cont_sun_m_1082_14_alg».proof.Proof.KernelFrame
import proofs.«179994_g53772990545976_cont_sun_m_1082_14_alg».proof.Proof.IdealFrame
import proofs.«179994_g53772990545976_cont_sun_m_1082_14_alg».proof.Proof.RefValue
import Idealize.ShloMosaic.Adequacy
import Idealize.ShloMosaic.Init

noncomputable section

namespace Cert.Proof

open Idealize.ShloMosaic Idealize.SL.Sem

/-- From memories that agree on X, A and W, the idealized kernel and the idealized reference both end with the layer's
    output of those arrays in their result, the arguments unchanged. -/
theorem algebraic : Cert.algebraic_KernelIdeal_ReferenceIdeal := by
  intro m ρ m' ρ' _ hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Body.run_value m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    Cert.Proof.KernelFrame.frame, Cert.KernelIdeal.Body.frame, Cert.ReferenceIdeal.RefValue.frame, trivial, algebraic⟩

end Cert.Proof

end
